-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) (main_arg7 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x128 : Shape := ⟨2, ![1700000, 128]⟩
abbrev S1x128 : Shape := ⟨2, ![1, 128]⟩
abbrev S10000x128 : Shape := ⟨2, ![10000, 128]⟩

abbrev nBuf : Space → Nat
  | .hbm => 96
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S2x1600000, .i32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000x128, .f32⟩
  | .hbm, ⟨45, _⟩ => ⟨S_, .f32⟩
  | .hbm, ⟨46, _⟩ => ⟨S100000x128, .f32⟩
  | .hbm, ⟨47, _⟩ => ⟨S1700000x1, .i32⟩
  | .hbm, ⟨48, _⟩ => ⟨S100000x128, .f32⟩
  | .hbm, ⟨49, _⟩ => ⟨S100000x1, .f32⟩
  | .hbm, ⟨50, _⟩ => ⟨S100000x128, .f32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S100000x1, .f32⟩
  | .hbm, ⟨55, _⟩ => ⟨S100000x128, .f32⟩
  | .hbm, ⟨56, _⟩ => ⟨S100000x128, .f32⟩
  | .hbm, ⟨57, _⟩ => ⟨S_, .i32⟩
  | .hbm, ⟨58, _⟩ => ⟨S1700000, .i32⟩
  | .hbm, ⟨59, _⟩ => ⟨S1700000, .i1⟩
  | .hbm, ⟨60, _⟩ => ⟨S_, .i32⟩
  | .hbm, ⟨61, _⟩ => ⟨S1700000, .i32⟩
  | .hbm, ⟨62, _⟩ => ⟨S1700000, .i32⟩
  | .hbm, ⟨63, _⟩ => ⟨S1700000, .i32⟩
  | .hbm, ⟨64, _⟩ => ⟨S1700000x1, .i32⟩
  | .hbm, ⟨65, _⟩ => ⟨S1700000x128, .f32⟩
  | .hbm, ⟨66, _⟩ => ⟨S_, .f32⟩
  | .hbm, ⟨67, _⟩ => ⟨S100000x128, .f32⟩
  | .hbm, ⟨68, _⟩ => ⟨S1700000x1, .i32⟩
  | .hbm, ⟨69, _⟩ => ⟨S100000x128, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x1, .f32⟩
  | .hbm, ⟨76, _⟩ => ⟨S100000x128, .f32⟩
  | .hbm, ⟨77, _⟩ => ⟨S100000x128, .f32⟩
  | .hbm, ⟨78, _⟩ => ⟨S_, .i32⟩
  | .hbm, ⟨79, _⟩ => ⟨S1700000, .i32⟩
  | .hbm, ⟨80, _⟩ => ⟨S1700000, .i1⟩
  | .hbm, ⟨81, _⟩ => ⟨S_, .i32⟩
  | .hbm, ⟨82, _⟩ => ⟨S1700000, .i32⟩
  | .hbm, ⟨83, _⟩ => ⟨S1700000, .i32⟩
  | .hbm, ⟨84, _⟩ => ⟨S1700000, .i32⟩
  | .hbm, ⟨85, _⟩ => ⟨S1700000x1, .i32⟩
  | .hbm, ⟨86, _⟩ => ⟨S1700000x128, .f32⟩
  | .hbm, ⟨87, _⟩ => ⟨S_, .f32⟩
  | .hbm, ⟨88, _⟩ => ⟨S100000x128, .f32⟩
  | .hbm, ⟨89, _⟩ => ⟨S1700000x1, .i32⟩
  | .hbm, ⟨90, _⟩ => ⟨S100000x128, .f32⟩
  | .hbm, ⟨91, _⟩ => ⟨S100000x1, .f32⟩
  | .hbm, ⟨92, _⟩ => ⟨S100000x128, .f32⟩
  | .hbm, ⟨93, _⟩ => ⟨S100000x128, .f32⟩
  | .hbm, ⟨94, _⟩ => ⟨S1x128, .f32⟩
  | .hbm, ⟨95, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S128x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S128x128, .f32⟩
  | .local _ .vmem, ⟨15, _⟩ => ⟨S1x128, .f32⟩
  | .local _ .vmem, ⟨16, _⟩ => ⟨S10000x128, .f32⟩
  | .local _ .vmem, ⟨17, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_6 : Ref sig .tc := ⟨.hbm, 57, rfl⟩
abbrev main_v41 : Ref sig .tc := ⟨.hbm, 58, rfl⟩
abbrev main_v42 : Ref sig .tc := ⟨.hbm, 59, rfl⟩
abbrev main_c_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c_9 : Ref sig .tc := ⟨.hbm, 78, rfl⟩
abbrev main_v59 : Ref sig .tc := ⟨.hbm, 79, rfl⟩
abbrev main_v60 : Ref sig .tc := ⟨.hbm, 80, rfl⟩
abbrev main_c_10 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_11 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v35) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v53) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v71) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v72) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v73) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x128 : Shape := ⟨2, ![1700000, 128]⟩
abbrev S1x128 : Shape := ⟨2, ![1, 128]⟩

abbrev nBuf : Space → Nat
  | .hbm => 108
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S2x1600000, .i32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000x128, .f32⟩
  | .hbm, ⟨45, _⟩ => ⟨S_, .f32⟩
  | .hbm, ⟨46, _⟩ => ⟨S100000x128, .f32⟩
  | .hbm, ⟨47, _⟩ => ⟨S1700000x1, .i32⟩
  | .hbm, ⟨48, _⟩ => ⟨S100000x128, .f32⟩
  | .hbm, ⟨49, _⟩ => ⟨S100000x1, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S100000x128, .f32⟩
  | .hbm, ⟨58, _⟩ => ⟨S100000x128, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S_, .i32⟩
  | .hbm, ⟨63, _⟩ => ⟨S1700000, .i32⟩
  | .hbm, ⟨64, _⟩ => ⟨S1700000, .i1⟩
  | .hbm, ⟨65, _⟩ => ⟨S_, .i32⟩
  | .hbm, ⟨66, _⟩ => ⟨S1700000, .i32⟩
  | .hbm, ⟨67, _⟩ => ⟨S1700000, .i32⟩
  | .hbm, ⟨68, _⟩ => ⟨S1700000, .i32⟩
  | .hbm, ⟨69, _⟩ => ⟨S1700000x1, .i32⟩
  | .hbm, ⟨70, _⟩ => ⟨S1700000x128, .f32⟩
  | .hbm, ⟨71, _⟩ => ⟨S_, .f32⟩
  | .hbm, ⟨72, _⟩ => ⟨S100000x128, .f32⟩
  | .hbm, ⟨73, _⟩ => ⟨S1700000x1, .i32⟩
  | .hbm, ⟨74, _⟩ => ⟨S100000x128, .f32⟩
  | .hbm, ⟨75, _⟩ => ⟨S100000x1, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000x128, .f32⟩
  | .hbm, ⟨84, _⟩ => ⟨S100000x128, .f32⟩
  | .hbm, ⟨85, _⟩ => ⟨S100000x1, .f32⟩
  | .hbm, ⟨86, _⟩ => ⟨S100000x128, .f32⟩
  | .hbm, ⟨87, _⟩ => ⟨S100000x128, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000x128, .f32⟩
  | .hbm, ⟨97, _⟩ => ⟨S_, .f32⟩
  | .hbm, ⟨98, _⟩ => ⟨S100000x128, .f32⟩
  | .hbm, ⟨99, _⟩ => ⟨S1700000x1, .i32⟩
  | .hbm, ⟨100, _⟩ => ⟨S100000x128, .f32⟩
  | .hbm, ⟨101, _⟩ => ⟨S100000x1, .f32⟩
  | .hbm, ⟨102, _⟩ => ⟨S100000x128, .f32⟩
  | .hbm, ⟨103, _⟩ => ⟨S100000x128, .f32⟩
  | .hbm, ⟨104, _⟩ => ⟨S100000x128, .f32⟩
  | .hbm, ⟨105, _⟩ => ⟨S1x128, .f32⟩
  | .hbm, ⟨106, _⟩ => ⟨S100000x128, .f32⟩
  | .hbm, ⟨107, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call0_cst : Ref sig .tc := ⟨.hbm, 56, rfl⟩
abbrev main_call0_v0 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_6 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_call1_cst : Ref sig .tc := ⟨.hbm, 82, rfl⟩
abbrev main_call1_v0 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_9 : Ref sig .tc := ⟨.hbm, 88, rfl⟩
abbrev main_v65 : Ref sig .tc := ⟨.hbm, 89, rfl⟩
abbrev main_v66 : Ref sig .tc := ⟨.hbm, 90, rfl⟩
abbrev main_c_10 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_11 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Tile.lean ====
/-
  One tile of a dense layer, read entry by entry.

  A tile is 10000 consecutive rows of the feature matrix.  The tile program narrows the rows and the weights to a
  shorter float format, multiplies them on the matrix unit into a zero accumulator, adds the bias row to every row
  of the product and (in the first two layers) takes the positive part.  Over the extended reals narrowing is the
  identity and the product into zero is the plain sum of products over the 128 inner positions, so entry (r, c) of
  the result is  (sum over k of x[r, k] * w[k, c]) + b[0, c],  clamped below at zero where the layer clamps.
-/
import proofs.«173956_j33500744909168_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.TcCoe

/-! ## The operand positions of the tile's matrix product -/

theorem lhs_axis0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_axis1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_axis0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_axis1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Entry (r, k) of the tile's rows, for the tile entry i = (r, c). -/
abbrev tileRow (i : S10000x128.Idx) (k : Fin 128) : S10000x128.Idx := fun a => match a with
  | ⟨0, _⟩ => ⟨(i 0).val, (i 0).isLt⟩
  | ⟨1, _⟩ => ⟨k.val, k.isLt⟩
/-- Entry (k, c) of the weights, for the tile entry i = (r, c). -/
abbrev tileCol (i : S10000x128.Idx) (k : Fin 128) : S128x128.Idx := fun a => match a with
  | ⟨0, _⟩ => ⟨k.val, k.isLt⟩
  | ⟨1, _⟩ => ⟨(i 1).val, (i 1).isLt⟩
/-- Entry (0, c) of the bias, held as one row, for the tile entry i = (r, c). -/
abbrev tileBias (i : S10000x128.Idx) : S1x128.Idx := fun a => match a with
  | ⟨0, _⟩ => ⟨0, Nat.one_pos⟩
  | ⟨1, _⟩ => ⟨(i 1).val, (i 1).isLt⟩

/-- The matrix unit's product into a zero accumulator is the sum of the 128 products along the inner axis. -/
theorem product_apply (x : FVec Ideal S10000x128 .bf16) (w : FVec Ideal S128x128 .bf16) (i : S10000x128.Idx) :
    matmul dot_S10000x128_S128x128_S10000x128_1_0_0_1_n_n none x w (constant S10000x128 .f32 0x00000000#32) i
      = ∑ k : Fin 128, x (tileRow i k) * w (tileCol i k) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx i ((ValueIdx.contrEquiv1 dot_S10000x128_S128x128_S10000x128_1_0_0_1_n_n 128 rfl rfl).symm k) = tileRow i k := funext fun a => Fin.ext (by
    match a with
    | ⟨0, _⟩ => exact lhs_axis0 _ _
    | ⟨1, _⟩ => exact (lhs_axis1 _ _).trans hk)
  have er : dot_S10000x128_S128x128_S10000x128_1_0_0_1_n_n.rhsIdx i ((ValueIdx.contrEquiv1 dot_S10000x128_S128x128_S10000x128_1_0_0_1_n_n 128 rfl rfl).symm k) = tileCol i k := funext fun a => Fin.ext (by
    match a with
    | ⟨0, _⟩ => exact (rhs_axis0 _ _).trans hk
    | ⟨1, _⟩ => exact rhs_axis1 _ _)
  rw [el, er]

/-- The bias row spread over the tile reads the bias at the entry's column. -/
theorem bias_apply (b : FVec Ideal S1x128 .f32) (i : S10000x128.Idx) :
    broadcastTo S10000x128 (shapeCast S1x128 b shapeCasts_S1x128_S1x128) broadcasts_S1x128_S10000x128 i = b (tileBias i) := by
  rw [shapeCast_self]
  exact broadcastTo_apply b broadcasts_S1x128_S10000x128 i (tileBias i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

/-- A tile of the first layer at an entry: the affine value, clamped below at zero. -/
theorem layer0_apply (x : Vec Ideal S10000x128 .f32) (w : Vec Ideal S128x128 .f32) (b : Vec Ideal S1x128 .f32) (i : S10000x128.Idx) :
    k0_pay1 (F := Ideal) x w b i = max ((∑ k : Fin 128, x (tileRow i k) * w (tileCol i k)) + b (tileBias i)) 0 := by
  unfold k0_pay1
  rw [ValueIdx.maximumf_apply, ValueIdx.addf_apply, product_apply, bias_apply, shapeCast_self]
  show max ((∑ k : Fin 128, x (tileRow i k) * w (tileCol i k)) + b (tileBias i)) (Ideal.ofBits .f32 0x00000000#32) = _
  rw [Ideal.ofBits_zero_f32]

/-- A tile of the second layer at an entry: the same function. -/
theorem layer1_apply (x : Vec Ideal S10000x128 .f32) (w : Vec Ideal S128x128 .f32) (b : Vec Ideal S1x128 .f32) (i : S10000x128.Idx) :
    k1_pay1 (F := Ideal) x w b i = max ((∑ k : Fin 128, x (tileRow i k) * w (tileCol i k)) + b (tileBias i)) 0 := by
  unfold k1_pay1
  rw [ValueIdx.maximumf_apply, ValueIdx.addf_apply, product_apply, bias_apply, shapeCast_self]
  show max ((∑ k : Fin 128, x (tileRow i k) * w (tileCol i k)) + b (tileBias i)) (Ideal.ofBits .f32 0x00000000#32) = _
  rw [Ideal.ofBits_zero_f32]

/-- A tile of the last layer at an entry: the affine value, not clamped. -/
theorem layer2_apply (x : Vec Ideal S10000x128 .f32) (w : Vec Ideal S128x128 .f32) (b : Vec Ideal S1x128 .f32) (i : S10000x128.Idx) :
    k2_pay1 (F := Ideal) x w b i = (∑ k : Fin 128, x (tileRow i k) * w (tileCol i k)) + b (tileBias i) := by
  unfold k2_pay1
  rw [ValueIdx.addf_apply, product_apply, bias_apply, shapeCast_self]
  rfl

end Cert.KernelIdeal.Tile

end
-- ==== Proof.DenseSpec.lean ====
/-
  The dense layer of a graph convolution, as a function on whole arrays over the extended reals.

  For a feature matrix X of 100000 rows and 128 columns, a weight matrix W of 128 by 128 and a bias b held as
  one row of length 128, the layer's output at (r, c) is  (sum over k of X[r, k] * W[k, c]) + b[0, c];  the first two layers
  clamp that value below at zero.  Both programs compute each layer this way: one tile of 10000 rows at a time
  with the matrix unit on one side, one whole product followed by a broadcast addition on the other.  A sum over
  a finite set of extended reals does not depend on the order or the grouping of its terms, so the two readings
  are one function, and no finiteness of the entries is needed.
-/
import Idealize.ShloMosaic.PureOps.Ideal
import Idealize.ShloMosaic.Lib.ValueIdx

noncomputable section

namespace Cert.Dense

open Idealize.ShloMosaic

/-- The shapes of a feature matrix, a weight matrix and a bias row. -/
abbrev SX : Shape := ⟨2, ![100000, 128]⟩
abbrev SW : Shape := ⟨2, ![128, 128]⟩
abbrev SB : Shape := ⟨2, ![1, 128]⟩

/-- Entry (r, k) of the feature matrix, for the output index i = (r, c). -/
abbrev rowIdx (i : SX.Idx) (k : Fin 128) : SX.Idx := fun a => match a with
  | ⟨0, _⟩ => ⟨(i 0).val, (i 0).isLt⟩
  | ⟨1, _⟩ => ⟨k.val, k.isLt⟩
/-- Entry (k, c) of the weight matrix, for the output index i = (r, c). -/
abbrev colIdx (i : SX.Idx) (k : Fin 128) : SW.Idx := fun a => match a with
  | ⟨0, _⟩ => ⟨k.val, k.isLt⟩
  | ⟨1, _⟩ => ⟨(i 1).val, (i 1).isLt⟩
/-- Entry (0, c) of the bias row, for the output index i = (r, c). -/
abbrev biasIdx (i : SX.Idx) : SB.Idx := fun a => match a with
  | ⟨0, _⟩ => ⟨0, Nat.one_pos⟩
  | ⟨1, _⟩ => ⟨(i 1).val, (i 1).isLt⟩

/-- The affine layer: X W + b, the bias added to every row. -/
def affine (X : SX.Idx → EReal) (W : SW.Idx → EReal) (b : SB.Idx → EReal) : SX.Idx → EReal :=
  fun i => (∑ k : Fin 128, X (rowIdx i k) * W (colIdx i k)) + b (biasIdx i)

/-- The affine layer followed by the positive part. -/
def affineRelu (X : SX.Idx → EReal) (W : SW.Idx → EReal) (b : SB.Idx → EReal) : SX.Idx → EReal :=
  fun i => max (affine X W b i) 0

/-- The layers depend only on their three arrays. -/
theorem affine_congr {X X' : SX.Idx → EReal} {W W' : SW.Idx → EReal} {b b' : SB.Idx → EReal}
    (hX : X = X') (hW : W = W') (hb : b = b') : affine X W b = affine X' W' b' := by
  subst hX hW hb; rfl

theorem affineRelu_congr {X X' : SX.Idx → EReal} {W W' : SW.Idx → EReal} {b b' : SB.Idx → EReal}
    (hX : X = X') (hW : W = W') (hb : b = b') : affineRelu X W b = affineRelu X' W' b' := by
  subst hX hW hb; rfl

end Cert.Dense

end
-- ==== Proof.Layers.lean ====
/-
  Each dense layer as a whole array.

  A layer's region visits ten tiles of 10000 rows.  At tile t it reads rows 10000 t … 10000 t + 9999 of the feature
  matrix, the whole weight matrix and the bias row, and writes the same rows of the output.  Row r of the output is
  therefore written once, by tile r / 10000, and the entry written there is the layer's value at (r, c) — the
  tile's sum over k runs over the same 128 products as the whole layer's.  So after the ten tiles the output array
  is the layer applied to the arrays the region found on entry, whatever they were.
-/
import proofs.«173956_j33500744909168_1_alg».proof.Proof.Gen.KernelIdeal.Frame
import proofs.«173956_j33500744909168_1_alg».proof.Proof.Tile
import proofs.«173956_j33500744909168_1_alg».proof.Proof.DenseSpec
import Idealize.ShloMosaic.Lib.Pipeline.Value

set_option maxRecDepth 16384

noncomputable section

namespace Cert.KernelIdeal.Layer

open Idealize.ShloMosaic Idealize.ShloMosaic.TcCoe Idealize.SL.Sem
open Idealize.ShloMosaic.Pipeline (Dat)
open Cert.KernelIdeal Cert.KernelIdeal.Gen Cert.KernelIdeal.Tile Cert.Dense

theorem hz : (![0, 0] : Fin 2 → Nat) = fun _ => 0 := funext fun a => by fin_cases a <;> rfl

/-- A tile's entry is the layer's entry, once each tile position is placed in its array. -/
theorem tile0_eq (X : SX.Idx → EReal) (W : SW.Idx → EReal) (B : SB.Idx → EReal)
    (e0 : S10000x128.Idx → SX.Idx) (e1 : S128x128.Idx → SW.Idx) (e2 : S1x128.Idx → SB.Idx) (e3 : S10000x128.Idx → SX.Idx)
    (h0 : ∀ j k, e0 (tileRow j k) = rowIdx (e3 j) k) (h1 : ∀ j k, e1 (tileCol j k) = colIdx (e3 j) k)
    (h2 : ∀ j, e2 (tileBias j) = biasIdx (e3 j)) (j : S10000x128.Idx) :
    k0_pay1 (F := Ideal) (fun y => X (e0 y)) (fun y => W (e1 y)) (fun y => B (e2 y)) j = affineRelu X W B (e3 j) := by
  rw [layer0_apply]
  unfold affineRelu affine
  simp only [h0, h1, h2]

/-- A tile's entry is the layer's entry, once each tile position is placed in its array. -/
theorem tile1_eq (X : SX.Idx → EReal) (W : SW.Idx → EReal) (B : SB.Idx → EReal)
    (e0 : S10000x128.Idx → SX.Idx) (e1 : S128x128.Idx → SW.Idx) (e2 : S1x128.Idx → SB.Idx) (e3 : S10000x128.Idx → SX.Idx)
    (h0 : ∀ j k, e0 (tileRow j k) = rowIdx (e3 j) k) (h1 : ∀ j k, e1 (tileCol j k) = colIdx (e3 j) k)
    (h2 : ∀ j, e2 (tileBias j) = biasIdx (e3 j)) (j : S10000x128.Idx) :
    k1_pay1 (F := Ideal) (fun y => X (e0 y)) (fun y => W (e1 y)) (fun y => B (e2 y)) j = affineRelu X W B (e3 j) := by
  rw [layer1_apply]
  unfold affineRelu affine
  simp only [h0, h1, h2]

/-- A tile's entry is the layer's entry, once each tile position is placed in its array. -/
theorem tile2_eq (X : SX.Idx → EReal) (W : SW.Idx → EReal) (B : SB.Idx → EReal)
    (e0 : S10000x128.Idx → SX.Idx) (e1 : S128x128.Idx → SW.Idx) (e2 : S1x128.Idx → SB.Idx) (e3 : S10000x128.Idx → SX.Idx)
    (h0 : ∀ j k, e0 (tileRow j k) = rowIdx (e3 j) k) (h1 : ∀ j k, e1 (tileCol j k) = colIdx (e3 j) k)
    (h2 : ∀ j, e2 (tileBias j) = biasIdx (e3 j)) (j : S10000x128.Idx) :
    k2_pay1 (F := Ideal) (fun y => X (e0 y)) (fun y => W (e1 y)) (fun y => B (e2 y)) j = affine X W B (e3 j) := by
  rw [layer2_apply]
  unfold affine
  simp only [h0, h1, h2]

variable (V : (c : Dev nD) → (b : Ref sig .tc) → Buf (Elt Ideal) ((c : Thread nD τ).loc b))

/-! ## The first layer -/

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem flushed0_eq (c : Dev nD) (t : Fin cfg0.N) :
    (dat0 V c).flushed 3 t = ((cfg0.win 3).blk t).view.read (Elt Ideal) (affineRelu (V c main_v35) (V c main_arg1) (V c main_v36)) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x128) hz, View.ld_unit_zero (S := S1x128) hz]
  obtain ⟨e00, e01, e10, e11, e20, e21, e30, e31⟩ := idx_facts0 t
  funext j
  show k0_pay1 (F := Ideal) (fun y => V c main_v35 (((cfg0.win 0).blk t).view.emb y)) (fun y => V c main_arg1 (((cfg0.win 1).blk t).view.emb y))
      (fun y => V c main_v36 (((cfg0.win 2).blk t).view.emb y)) j
    = affineRelu (V c main_v35) (V c main_arg1) (V c main_v36) (((cfg0.win 3).blk t).view.emb j)
  refine tile0_eq (V c main_v35) (V c main_arg1) (V c main_v36) (((cfg0.win 0).blk t).view.emb) (((cfg0.win 1).blk t).view.emb)
    (((cfg0.win 2).blk t).view.emb) (((cfg0.win 3).blk t).view.emb) ?_ ?_ ?_ j
  · intro j k; funext a; apply Fin.ext
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 128 + 1 * k.val = k.val; omega
  · intro j k; funext a; apply Fin.ext
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  · intro j; funext a; apply Fin.ext
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega

/-- An index of the layer's output lies in the tile of point `t` exactly when its row is one of that tile's rows. -/
theorem mem_blk0 (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v37).slice (win0_3.rect t)).set ↔ _
  rw [View.set_slice_whole, Rect.mem_set_unit]
  exact Iff.rfl

/-- The ten tiles cover the output: row `r` lies in tile `r / 10000`. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  refine ⟨⟨(i 0).val / 10000, by rw [show cfg0.N = 10 from N_0]; omega⟩, flush0_3 _, ?_⟩
  rw [mem_blk0]
  obtain ⟨-, -, -, -, -, -, e30, e31⟩ := idx_facts0 ⟨(i 0).val / 10000, by rw [show cfg0.N = 10 from N_0]; omega⟩
  intro a
  match a with
  | ⟨0, _⟩ => show win0_3.index _ (0 : Fin 2) * 10000 ≤ (i 0).val ∧ (i 0).val < win0_3.index _ (0 : Fin 2) * 10000 + 10000; rw [e30]; show (i 0).val / 10000 * 10000 ≤ (i 0).val ∧ (i 0).val < (i 0).val / 10000 * 10000 + 10000; omega
  | ⟨1, _⟩ => show win0_3.index _ (1 : Fin 2) * 128 ≤ (i 1).val ∧ (i 1).val < win0_3.index _ (1 : Fin 2) * 128 + 128; rw [e31]; omega

/-- The first layer's output array after its ten tiles: the clamped affine function of the arrays the region found. -/
theorem layer0_value (c : Dev nD) :
    (dat0 V c).arrAt 3 cfg0.N = affineRelu (V c main_v35) (V c main_arg1) (V c main_v36) :=
  (dat0 V c).arrAt_eq_of_cover 3 _ (fun t _ => flushed0_eq V c t) cover0

/-! ## The second layer -/

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem flushed1_eq (c : Dev nD) (t : Fin cfg1.N) :
    (dat1 V c).flushed 3 t = ((cfg1.win 3).blk t).view.read (Elt Ideal) (affineRelu (V c main_v53) (V c main_arg3) (V c main_v54)) := by
  show (cfg1.win 3).cut (grid1.coords t) ((dat1 V c).after 3 t) = _
  rw [after1_3]
  unfold out1_3
  rw [View.canon_unit_zero hz]
  simp only [View.ld_unit_zero (S := S10000x128) hz, View.ld_unit_zero (S := S128x128) hz, View.ld_unit_zero (S := S1x128) hz]
  obtain ⟨e00, e01, e10, e11, e20, e21, e30, e31⟩ := idx_facts1 t
  funext j
  show k1_pay1 (F := Ideal) (fun y => V c main_v53 (((cfg1.win 0).blk t).view.emb y)) (fun y => V c main_arg3 (((cfg1.win 1).blk t).view.emb y))
      (fun y => V c main_v54 (((cfg1.win 2).blk t).view.emb y)) j
    = affineRelu (V c main_v53) (V c main_arg3) (V c main_v54) (((cfg1.win 3).blk t).view.emb j)
  refine tile1_eq (V c main_v53) (V c main_arg3) (V c main_v54) (((cfg1.win 0).blk t).view.emb) (((cfg1.win 1).blk t).view.emb)
    (((cfg1.win 2).blk t).view.emb) (((cfg1.win 3).blk t).view.emb) ?_ ?_ ?_ j
  · intro j k; funext a; apply Fin.ext
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 128 + 1 * k.val = k.val; omega
  · intro j k; funext a; apply Fin.ext
    match a with
    | ⟨0, _⟩ => show win1_1.index t (0 : Fin 2) * 128 + 1 * k.val = k.val; omega
    | ⟨1, _⟩ => show win1_1.index t (1 : Fin 2) * 128 + 1 * (j 1).val = win1_3.index t (1 : Fin 2) * 128 + 1 * (j 1).val; omega
  · intro j; funext a; apply Fin.ext
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega

/-- An index of the layer's output lies in the tile of point `t` exactly when its row is one of that tile's rows. -/
theorem mem_blk1 (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v55).slice (win1_3.rect t)).set ↔ _
  rw [View.set_slice_whole, Rect.mem_set_unit]
  exact Iff.rfl

/-- The ten tiles cover the output: row `r` lies in tile `r / 10000`. -/
theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  refine ⟨⟨(i 0).val / 10000, by rw [show cfg1.N = 10 from N_1]; omega⟩, flush1_3 _, ?_⟩
  rw [mem_blk1]
  obtain ⟨-, -, -, -, -, -, e30, e31⟩ := idx_facts1 ⟨(i 0).val / 10000, by rw [show cfg1.N = 10 from N_1]; omega⟩
  intro a
  match a with
  | ⟨0, _⟩ => show win1_3.index _ (0 : Fin 2) * 10000 ≤ (i 0).val ∧ (i 0).val < win1_3.index _ (0 : Fin 2) * 10000 + 10000; rw [e30]; show (i 0).val / 10000 * 10000 ≤ (i 0).val ∧ (i 0).val < (i 0).val / 10000 * 10000 + 10000; omega
  | ⟨1, _⟩ => show win1_3.index _ (1 : Fin 2) * 128 ≤ (i 1).val ∧ (i 1).val < win1_3.index _ (1 : Fin 2) * 128 + 128; rw [e31]; omega

/-- The second layer's output array after its ten tiles: the clamped affine function of the arrays the region found. -/
theorem layer1_value (c : Dev nD) :
    (dat1 V c).arrAt 3 cfg1.N = affineRelu (V c main_v53) (V c main_arg3) (V c main_v54) :=
  (dat1 V c).arrAt_eq_of_cover 3 _ (fun t _ => flushed1_eq V c t) cover1

/-! ## The last layer -/

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem flushed2_eq (c : Dev nD) (t : Fin cfg2.N) :
    (dat2 V c).flushed 3 t = ((cfg2.win 3).blk t).view.read (Elt Ideal) (affine (V c main_v71) (V c main_arg5) (V c main_v72)) := by
  show (cfg2.win 3).cut (grid2.coords t) ((dat2 V c).after 3 t) = _
  rw [after2_3]
  unfold out2_3
  rw [View.canon_unit_zero hz]
  simp only [View.ld_unit_zero (S := S10000x128) hz, View.ld_unit_zero (S := S128x128) hz, View.ld_unit_zero (S := S1x128) hz]
  obtain ⟨e00, e01, e10, e11, e20, e21, e30, e31⟩ := idx_facts2 t
  funext j
  show k2_pay1 (F := Ideal) (fun y => V c main_v71 (((cfg2.win 0).blk t).view.emb y)) (fun y => V c main_arg5 (((cfg2.win 1).blk t).view.emb y))
      (fun y => V c main_v72 (((cfg2.win 2).blk t).view.emb y)) j
    = affine (V c main_v71) (V c main_arg5) (V c main_v72) (((cfg2.win 3).blk t).view.emb j)
  refine tile2_eq (V c main_v71) (V c main_arg5) (V c main_v72) (((cfg2.win 0).blk t).view.emb) (((cfg2.win 1).blk t).view.emb)
    (((cfg2.win 2).blk t).view.emb) (((cfg2.win 3).blk t).view.emb) ?_ ?_ ?_ j
  · intro j k; funext a; apply Fin.ext
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 128 + 1 * k.val = k.val; omega
  · intro j k; funext a; apply Fin.ext
    match a with
    | ⟨0, _⟩ => show win2_1.index t (0 : Fin 2) * 128 + 1 * k.val = k.val; omega
    | ⟨1, _⟩ => show win2_1.index t (1 : Fin 2) * 128 + 1 * (j 1).val = win2_3.index t (1 : Fin 2) * 128 + 1 * (j 1).val; omega
  · intro j; funext a; apply Fin.ext
    match a with
    | ⟨0, _⟩ => show win2_2.index t (0 : Fin 2) * 1 + 1 * 0 = 0; omega
    | ⟨1, _⟩ => show win2_2.index t (1 : Fin 2) * 128 + 1 * (j 1).val = win2_3.index t (1 : Fin 2) * 128 + 1 * (j 1).val; omega

/-- An index of the layer's output lies in the tile of point `t` exactly when its row is one of that tile's rows. -/
theorem mem_blk2 (t : Fin cfg2.N) (i : S100000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v73).slice (win2_3.rect t)).set ↔ _
  rw [View.set_slice_whole, Rect.mem_set_unit]
  exact Iff.rfl

/-- The ten tiles cover the output: row `r` lies in tile `r / 10000`. -/
theorem cover2 (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  refine ⟨⟨(i 0).val / 10000, by rw [show cfg2.N = 10 from N_2]; omega⟩, flush2_3 _, ?_⟩
  rw [mem_blk2]
  obtain ⟨-, -, -, -, -, -, e30, e31⟩ := idx_facts2 ⟨(i 0).val / 10000, by rw [show cfg2.N = 10 from N_2]; omega⟩
  intro a
  match a with
  | ⟨0, _⟩ => show win2_3.index _ (0 : Fin 2) * 10000 ≤ (i 0).val ∧ (i 0).val < win2_3.index _ (0 : Fin 2) * 10000 + 10000; rw [e30]; show (i 0).val / 10000 * 10000 ≤ (i 0).val ∧ (i 0).val < (i 0).val / 10000 * 10000 + 10000; omega
  | ⟨1, _⟩ => show win2_3.index _ (1 : Fin 2) * 128 ≤ (i 1).val ∧ (i 1).val < win2_3.index _ (1 : Fin 2) * 128 + 128; rw [e31]; omega

/-- The last layer's output array after its ten tiles: the affine function of the arrays the region found. -/
theorem layer2_value (c : Dev nD) :
    (dat2 V c).arrAt 3 cfg2.N = affine (V c main_v71) (V c main_arg5) (V c main_v72) :=
  (dat2 V c).arrAt_eq_of_cover 3 _ (fun t _ => flushed2_eq V c t) cover2

end Cert.KernelIdeal.Layer

end
-- ==== Proof.RefValue.lean ====
/-
  The reference program read layer by layer.

  The reference computes three graph-convolution layers.  Each layer first propagates its input features over the
  graph — scale every row by the inverse square root of its node's out-degree, gather one row per edge, add the
  gathered rows into their destination nodes, scale every row by the inverse square root of the in-degree — and
  then applies a dense layer to the propagated features: one whole matrix product, the bias added to every row,
  and, in the first two layers, the positive part.  Read at an entry the dense part is the affine layer of the
  specification: the product's entry is the sum of the 128 products along the inner axis, the broadcast bias is
  the bias at the entry's column, and the positive part is the maximum with zero.

  The propagation of the second and third layers is named here as a function of the edge list and of the features
  it is applied to, so that the other program's propagation, which is the same chain of operations, can be matched
  against it without being opened.
-/
import proofs.«173956_j33500744909168_1_alg».proof.Proof.Gen.ReferenceIdeal.Run
import proofs.«173956_j33500744909168_1_alg».proof.Proof.Gen.ReferenceIdeal.Read
import proofs.«173956_j33500744909168_1_alg».proof.Proof.DenseSpec
import Idealize.ShloMosaic.PureOps.Ideal.Laws

noncomputable section

namespace Cert.ReferenceIdeal.Layers

open Cert.ReferenceIdeal Cert.ReferenceIdeal.Gen Cert.ReferenceIdeal.Read Cert.Dense Idealize.ShloMosaic Idealize.ShloMosaic.TcCoe

variable {F : FTy → Type} [FloatOps F]

/-! ## Propagation over the graph, as a function of the features it is applied to -/

/-- The propagation feeding the second layer: the features scaled by the source normalisation, gathered along the
    edges, added into the destination nodes, scaled by the destination normalisation. -/
def propagate1 (x7 : (⟨S2x1600000, .i32⟩ : BufTy).Contents (Elt F)) (y : (⟨S100000x128, .f32⟩ : BufTy).Contents (Elt F)) : (⟨S100000x128, .f32⟩ : BufTy).Contents (Elt F) :=
  mulf (Host.scatterAdd scatter_S100000x128_S1700000x1_S1700000x128_1_0_0_1 (val_main_v51 (F := F)) (val_main_v52 (F := F) x7)
      (Host.gather gather_S100000x128_S1700000x1_S1700000x128_1_0_n_n_0_1_1128 (mulf y (val_main_v42 (F := F) x7)) (val_main_v49 (F := F) x7)))
    (val_main_v55 (F := F) x7)

/-- The propagation feeding the last layer: the same chain. -/
def propagate2 (x7 : (⟨S2x1600000, .i32⟩ : BufTy).Contents (Elt F)) (y : (⟨S100000x128, .f32⟩ : BufTy).Contents (Elt F)) : (⟨S100000x128, .f32⟩ : BufTy).Contents (Elt F) :=
  mulf (Host.scatterAdd scatter_S100000x128_S1700000x1_S1700000x128_1_0_0_1 (val_main_v72 (F := F)) (val_main_v73 (F := F) x7)
      (Host.gather gather_S100000x128_S1700000x1_S1700000x128_1_0_n_n_0_1_1128 (mulf y (val_main_v63 (F := F) x7)) (val_main_v70 (F := F) x7)))
    (val_main_v76 (F := F) x7)

/-- The second layer's input is the propagation of the first layer's output. -/
theorem second_input (x0 : (⟨S100000x128, .f32⟩ : BufTy).Contents (Elt F)) (x1 : (⟨S128x128, .f32⟩ : BufTy).Contents (Elt F)) (x2 : (⟨S128, .f32⟩ : BufTy).Contents (Elt F)) (x7 : (⟨S2x1600000, .i32⟩ : BufTy).Contents (Elt F)) :
    val_main_v56 (F := F) x0 x1 x2 x7 = propagate1 x7 (val_main_v40 (F := F) x0 x1 x2 x7) := rfl

/-- The last layer's input is the propagation of the second layer's output. -/
theorem last_input (x0 : (⟨S100000x128, .f32⟩ : BufTy).Contents (Elt F)) (x1 : (⟨S128x128, .f32⟩ : BufTy).Contents (Elt F)) (x2 : (⟨S128, .f32⟩ : BufTy).Contents (Elt F)) (x3 : (⟨S128x128, .f32⟩ : BufTy).Contents (Elt F)) (x4 : (⟨S128, .f32⟩ : BufTy).Contents (Elt F)) (x7 : (⟨S2x1600000, .i32⟩ : BufTy).Contents (Elt F)) :
    val_main_v77 (F := F) x0 x1 x2 x3 x4 x7 = propagate2 x7 (val_main_v61 (F := F) x0 x1 x2 x3 x4 x7) := rfl

/-! ## The dense part of each layer is the affine layer of the specification -/

/-- The first layer: product, bias, positive part. -/
theorem first_layer (x0 : (⟨S100000x128, .f32⟩ : BufTy).Contents (Elt Ideal)) (x1 : (⟨S128x128, .f32⟩ : BufTy).Contents (Elt Ideal)) (x2 : (⟨S128, .f32⟩ : BufTy).Contents (Elt Ideal)) (x7 : (⟨S2x1600000, .i32⟩ : BufTy).Contents (Elt Ideal)) :
    val_main_v40 (F := Ideal) x0 x1 x2 x7 = affineRelu (val_main_v35 (F := Ideal) x0 x7) x1 (val_main_v37 (F := Ideal) x2) := by
  funext i
  rw [val_main_v40_apply, val_main_v39_apply, val_main_v36_apply, val_main_v38_apply, val_main_call0_v0_apply, val_main_call0_cst_apply]
  unfold affineRelu affine
  show max ((∑ k : Fin 128, val_main_v35 (F := Ideal) x0 x7 (lidx_main_v36 i k) * x1 (ridx_main_v36 i k)) + val_main_v37 (F := Ideal) x2 (idx_main_v38 i)) (Ideal.ofBits .f32 0x00000000#32) = _
  rw [Ideal.ofBits_zero_f32]
  rfl

/-- The second layer: the same, applied to the second layer's input. -/
theorem second_layer (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x7 : (⟨S2x1600000, .i32⟩ : BufTy).Contents (Elt Ideal)) :
    val_main_v61 (F := Ideal) x0 x1 x2 x3 x4 x7 = affineRelu (val_main_v56 (F := Ideal) x0 x1 x2 x7) x3 (val_main_v58 (F := Ideal) x4) := by
  funext i
  rw [val_main_v61_apply, val_main_v60_apply, val_main_v57_apply, val_main_v59_apply, val_main_call1_v0_apply, val_main_call1_cst_apply]
  unfold affineRelu affine
  show max ((∑ k : Fin 128, val_main_v56 (F := Ideal) x0 x1 x2 x7 (lidx_main_v57 i k) * x3 (ridx_main_v57 i k)) + val_main_v58 (F := Ideal) x4 (idx_main_v59 i)) (Ideal.ofBits .f32 0x00000000#32) = _
  rw [Ideal.ofBits_zero_f32]
  rfl

/-- The last layer: product and bias, no positive part. -/
theorem last_layer (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S2x1600000, .i32⟩ : BufTy).Contents (Elt Ideal)) :
    val_main_v81 (F := Ideal) x0 x1 x2 x3 x4 x5 x6 x7 = affine (val_main_v77 (F := Ideal) x0 x1 x2 x3 x4 x7) x5 (val_main_v79 (F := Ideal) x6) := by
  funext i
  rw [val_main_v81_apply, val_main_v78_apply, val_main_v80_apply]
  rfl

end Cert.ReferenceIdeal.Layers

end
-- ==== Proof.HostSide.lean ====
/-
  The host operations of the tiled program, read against the reference's.

  Around its three dense regions the tiled program runs the same host operations as the reference: it builds the
  edge lists with their self loops, counts the degrees and takes their inverse square roots, and before each dense
  layer it propagates the current features over the graph.  Each stretch of host operations is read here from an
  arbitrary starting content of the buffers: what a stretch leaves in a buffer it writes is the reference's value
  of the same name, as a function of what the stretch read; a buffer it does not write keeps its content.  The
  bias, which the tiled program reshapes from 128 entries to one row of 128, is the row the reference obtains by
  broadcasting.
-/
import proofs.«173956_j33500744909168_1_alg».proof.Proof.Gen.KernelIdeal.Launch
import proofs.«173956_j33500744909168_1_alg».proof.Proof.RefValue
import Idealize.ShloMosaic.Lib.StableHlo.Run
import Idealize.ShloMosaic.Lib.Pipeline.Value

noncomputable section

namespace Cert.KernelIdeal.HostSide

open Cert.KernelIdeal Cert.KernelIdeal.Gen Idealize.ShloMosaic Idealize.ShloMosaic.TcCoe Idealize.SL.Sem Idealize.ShloMosaic.StableHlo

variable {F : FTy → Type} [FloatOps F]

/-- A vector of 128 entries reshaped to one row is the row that broadcasting it along a new leading axis gives. -/
theorem bias_row (b : (⟨S128, .f32⟩ : BufTy).Contents (Elt F)) :
    shapeCast S1x128 b shapeCasts_S128_S1x128 = Cert.ReferenceIdeal.Read.val_main_v37 (F := F) b := by
  funext i
  rw [Cert.ReferenceIdeal.Read.val_main_v37_apply]
  exact shapeCast_apply b shapeCasts_S128_S1x128 i (Cert.ReferenceIdeal.Read.idx_main_v37 i) (by
    rw [Shape.rowMajor_val_two, Shape.rowMajor_val_one]
    show (i 1).val = (i 0).val * 128 + (i 1).val
    have h0 : (i 0).val < 1 := (i 0).isLt
    omega)

/-- The four graph buffers (sources, destinations, and the two degree normalisations) hold the reference's values
    for the edge list `e`. -/
def GraphAt (X : Valuation τ sig (Elt F)) (e : (⟨Cert.ReferenceIdeal.S2x1600000, .i32⟩ : BufTy).Contents (Elt F)) : Prop :=
  X (Proc.devRef .tc main_v3) = Cert.ReferenceIdeal.Read.val_main_v3 (F := F) e
  ∧ X (Proc.devRef .tc main_v6) = Cert.ReferenceIdeal.Read.val_main_v6 (F := F) e
  ∧ X (Proc.devRef .tc main_v16) = Cert.ReferenceIdeal.Read.val_main_v16 (F := F) e
  ∧ X (Proc.devRef .tc main_v19) = Cert.ReferenceIdeal.Read.val_main_v19 (F := F) e

/-- The weights and biases of `Y` are those of `X`. -/
def SameWeights (X Y : Valuation τ sig (Elt F)) : Prop :=
  Y (Proc.devRef .tc main_arg1) = X (Proc.devRef .tc main_arg1)
  ∧ Y (Proc.devRef .tc main_arg2) = X (Proc.devRef .tc main_arg2)
  ∧ Y (Proc.devRef .tc main_arg3) = X (Proc.devRef .tc main_arg3)
  ∧ Y (Proc.devRef .tc main_arg4) = X (Proc.devRef .tc main_arg4)
  ∧ Y (Proc.devRef .tc main_arg5) = X (Proc.devRef .tc main_arg5)
  ∧ Y (Proc.devRef .tc main_arg6) = X (Proc.devRef .tc main_arg6)

theorem SameWeights.trans {X Y Z : Valuation τ sig (Elt F)} (h : SameWeights X Y) (h' : SameWeights Y Z) : SameWeights X Z :=
  ⟨h'.1.trans h.1, h'.2.1.trans h.2.1, h'.2.2.1.trans h.2.2.1, h'.2.2.2.1.trans h.2.2.2.1,
    h'.2.2.2.2.1.trans h.2.2.2.2.1, h'.2.2.2.2.2.trans h.2.2.2.2.2⟩

variable (X : Valuation τ sig (Elt F))

/-! ## The first stretch: edge lists, degree normalisations, the first propagation, the first bias row -/

set_option maxHeartbeats 4000000 in
theorem stretch0_graph : GraphAt (StableHlo.after hostOps0 X) (X (Proc.devRef .tc main_arg7)) := by
  refine ⟨?_, ?_, ?_, ?_⟩ <;> (after_results_simp; rfl)

set_option maxHeartbeats 4000000 in
theorem stretch0_weights : SameWeights X (StableHlo.after hostOps0 X) := by
  refine ⟨?_, ?_, ?_, ?_, ?_, ?_⟩ <;> after_results_simp

theorem stretch0_features : StableHlo.after hostOps0 X (Proc.devRef .tc main_v35)
    = Cert.ReferenceIdeal.Read.val_main_v35 (F := F) (X (Proc.devRef .tc main_arg0)) (X (Proc.devRef .tc main_arg7)) := by
  after_results_simp
  rfl

theorem stretch0_bias : StableHlo.after hostOps0 X (Proc.devRef .tc main_v36)
    = Cert.ReferenceIdeal.Read.val_main_v37 (F := F) (X (Proc.devRef .tc main_arg2)) := by
  after_results
  exact bias_row (X (Proc.devRef .tc main_arg2))

/-! ## The second stretch: the second propagation and the second bias row -/

set_option maxHeartbeats 4000000 in
theorem stretch1_graph (e : (⟨Cert.ReferenceIdeal.S2x1600000, .i32⟩ : BufTy).Contents (Elt F)) (h : GraphAt X e) :
    GraphAt (StableHlo.after hostOps1 X) e := by
  obtain ⟨h3, h6, h16, h19⟩ := h
  refine ⟨?_, ?_, ?_, ?_⟩
  · refine Eq.trans ?_ h3; after_results_simp
  · refine Eq.trans ?_ h6; after_results_simp
  · refine Eq.trans ?_ h16; after_results_simp
  · refine Eq.trans ?_ h19; after_results_simp

set_option maxHeartbeats 4000000 in
theorem stretch1_weights : SameWeights X (StableHlo.after hostOps1 X) := by
  refine ⟨?_, ?_, ?_, ?_, ?_, ?_⟩ <;> after_results_simp

theorem stretch1_features (e : (⟨Cert.ReferenceIdeal.S2x1600000, .i32⟩ : BufTy).Contents (Elt F)) (h : GraphAt X e) :
    StableHlo.after hostOps1 X (Proc.devRef .tc main_v53)
      = Cert.ReferenceIdeal.Layers.propagate1 (F := F) e (X (Proc.devRef .tc main_v37)) := by
  obtain ⟨h3, h6, h16, h19⟩ := h
  after_results_simp
  rw [h3, h6, h16, h19]
  rfl

theorem stretch1_bias : StableHlo.after hostOps1 X (Proc.devRef .tc main_v54)
    = Cert.ReferenceIdeal.Read.val_main_v58 (F := F) (X (Proc.devRef .tc main_arg4)) := by
  after_results
  exact bias_row (X (Proc.devRef .tc main_arg4))

/-! ## The third stretch: the third propagation and the third bias row -/

set_option maxHeartbeats 4000000 in
theorem stretch2_weights : SameWeights X (StableHlo.after hostOps2 X) := by
  refine ⟨?_, ?_, ?_, ?_, ?_, ?_⟩ <;> after_results_simp

theorem stretch2_features (e : (⟨Cert.ReferenceIdeal.S2x1600000, .i32⟩ : BufTy).Contents (Elt F)) (h : GraphAt X e) :
    StableHlo.after hostOps2 X (Proc.devRef .tc main_v71)
      = Cert.ReferenceIdeal.Layers.propagate2 (F := F) e (X (Proc.devRef .tc main_v55)) := by
  obtain ⟨h3, h6, h16, h19⟩ := h
  after_results_simp
  rw [h3, h6, h16, h19]
  rfl

theorem stretch2_bias : StableHlo.after hostOps2 X (Proc.devRef .tc main_v72)
    = Cert.ReferenceIdeal.Read.val_main_v79 (F := F) (X (Proc.devRef .tc main_arg6)) := by
  after_results
  exact bias_row (X (Proc.devRef .tc main_arg6))

end Cert.KernelIdeal.HostSide

end
-- ==== Proof.Whole.lean ====
/-
  The tiled program's result as one function of its arguments.

  The run of the tiled program passes six boundaries: after each stretch of host operations and after each dense
  region.  Following the buffers from one boundary to the next — a stretch leaves the reference's value of the same
  name in what it writes and keeps the rest; a region leaves the dense layer of what it found on entry in its output
  and keeps the rest — the features after each layer are the reference's features after that layer, and the result
  buffer at the last boundary holds the reference's result of the same arguments.
-/
import proofs.«173956_j33500744909168_1_alg».proof.Proof.Gen.KernelIdeal.Frame
import proofs.«173956_j33500744909168_1_alg».proof.Proof.Layers
import proofs.«173956_j33500744909168_1_alg».proof.Proof.HostSide
import proofs.«173956_j33500744909168_1_alg».proof.Proof.RefValue

set_option maxRecDepth 16384

noncomputable section

namespace Cert.KernelIdeal.Whole

open Idealize.ShloMosaic Idealize.ShloMosaic.TcCoe Idealize.SL.Sem
open Cert.KernelIdeal Cert.KernelIdeal.Gen Cert.Dense
open Cert.KernelIdeal.HostSide (GraphAt SameWeights)
open Cert.ReferenceIdeal.Read (val_main_v35 val_main_v37 val_main_v40 val_main_v56 val_main_v58 val_main_v61 val_main_v77 val_main_v79 val_main_v81)
open Cert.ReferenceIdeal.Layers (propagate1 propagate2)

variable (m : (ℓ : Loc nD τ sig) → Buf (Elt Ideal) ℓ) (ρ : Dev nD → PrngReg)

/-- The argument arrays at launch: the features, three weight matrices with their biases, the edge list. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)

/-! ## The graph buffers at the boundaries where a propagation starts -/

theorem graph1 (c : Dev nD) : GraphAt (W1 m ρ c) (a7 m c) := HostSide.stretch0_graph (W0 m ρ c)

theorem graph2 (c : Dev nD) : GraphAt (W2 m ρ c) (a7 m c) :=
  ⟨(W2_of_ne m ρ c main_v3 (by decide)).trans (graph1 m ρ c).1,
   (W2_of_ne m ρ c main_v6 (by decide)).trans (graph1 m ρ c).2.1,
   (W2_of_ne m ρ c main_v16 (by decide)).trans (graph1 m ρ c).2.2.1,
   (W2_of_ne m ρ c main_v19 (by decide)).trans (graph1 m ρ c).2.2.2⟩

theorem graph3 (c : Dev nD) : GraphAt (W3 m ρ c) (a7 m c) := HostSide.stretch1_graph (W2 m ρ c) (a7 m c) (graph2 m ρ c)

theorem graph4 (c : Dev nD) : GraphAt (W4 m ρ c) (a7 m c) :=
  ⟨(W4_of_ne m ρ c main_v3 (by decide)).trans (graph3 m ρ c).1,
   (W4_of_ne m ρ c main_v6 (by decide)).trans (graph3 m ρ c).2.1,
   (W4_of_ne m ρ c main_v16 (by decide)).trans (graph3 m ρ c).2.2.1,
   (W4_of_ne m ρ c main_v19 (by decide)).trans (graph3 m ρ c).2.2.2⟩

/-! ## The weights and biases at every boundary are the launch's

A region reads its weight matrix through an input window, which it leaves as it found it; every other weight and
bias is outside the region's windows. -/

theorem weights1 (c : Dev nD) : SameWeights (W0 m ρ c) (W1 m ρ c) := HostSide.stretch0_weights (W0 m ρ c)

theorem weights2 (c : Dev nD) : SameWeights (W0 m ρ c) (W2 m ρ c) :=
  (weights1 m ρ c).trans
    ⟨(W2_arr m ρ c 1).trans (((dat0 (V1 m ρ) c).arrAt_in 1 rfl _).trans (A_eq0 (V1 m ρ) c 1)), W2_of_ne m ρ c main_arg2 (by decide), W2_of_ne m ρ c main_arg3 (by decide),
     W2_of_ne m ρ c main_arg4 (by decide), W2_of_ne m ρ c main_arg5 (by decide), W2_of_ne m ρ c main_arg6 (by decide)⟩

theorem weights3 (c : Dev nD) : SameWeights (W0 m ρ c) (W3 m ρ c) := (weights2 m ρ c).trans (HostSide.stretch1_weights (W2 m ρ c))

theorem weights4 (c : Dev nD) : SameWeights (W0 m ρ c) (W4 m ρ c) :=
  (weights3 m ρ c).trans
    ⟨W4_of_ne m ρ c main_arg1 (by decide), W4_of_ne m ρ c main_arg2 (by decide),
     (W4_arr m ρ c 1).trans (((dat1 (V3 m ρ) c).arrAt_in 1 rfl _).trans (A_eq1 (V3 m ρ) c 1)),
     W4_of_ne m ρ c main_arg4 (by decide), W4_of_ne m ρ c main_arg5 (by decide), W4_of_ne m ρ c main_arg6 (by decide)⟩

theorem weights5 (c : Dev nD) : SameWeights (W0 m ρ c) (W5 m ρ c) := (weights4 m ρ c).trans (HostSide.stretch2_weights (W4 m ρ c))

/-! ## The features after each layer -/

/-- After the first dense region its output buffer holds the reference's features after the first layer. -/
theorem features2 (c : Dev nD) :
    W2 m ρ c (Proc.devRef .tc main_v37) = val_main_v40 (F := Ideal) (a0 m c) (a1 m c) (a2 m c) (a7 m c) :=
  calc W2 m ρ c (Proc.devRef .tc main_v37)
    _ = (dat0 (V1 m ρ) c).arrAt 3 cfg0.N := W2_arr m ρ c 3
    _ = affineRelu (V1 m ρ c main_v35) (V1 m ρ c main_arg1) (V1 m ρ c main_v36) := Layer.layer0_value (V1 m ρ) c
    _ = affineRelu (val_main_v35 (F := Ideal) (a0 m c) (a7 m c)) (a1 m c) (val_main_v37 (F := Ideal) (a2 m c)) :=
          affineRelu_congr (HostSide.stretch0_features (W0 m ρ c)) (weights1 m ρ c).1 (HostSide.stretch0_bias (W0 m ρ c))
    _ = val_main_v40 (F := Ideal) (a0 m c) (a1 m c) (a2 m c) (a7 m c) := (Cert.ReferenceIdeal.Layers.first_layer _ _ _ _).symm

/-- The second stretch propagates them: the second region's input. -/
theorem features3 (c : Dev nD) :
    W3 m ρ c (Proc.devRef .tc main_v53) = val_main_v56 (F := Ideal) (a0 m c) (a1 m c) (a2 m c) (a7 m c) :=
  calc W3 m ρ c (Proc.devRef .tc main_v53)
    _ = propagate1 (F := Ideal) (a7 m c) (W2 m ρ c (Proc.devRef .tc main_v37)) :=
          HostSide.stretch1_features (W2 m ρ c) (a7 m c) (graph2 m ρ c)
    _ = propagate1 (F := Ideal) (a7 m c) (val_main_v40 (F := Ideal) (a0 m c) (a1 m c) (a2 m c) (a7 m c)) :=
          congrArg (propagate1 (F := Ideal) (a7 m c)) (features2 m ρ c)
    _ = val_main_v56 (F := Ideal) (a0 m c) (a1 m c) (a2 m c) (a7 m c) := (Cert.ReferenceIdeal.Layers.second_input _ _ _ _).symm

theorem bias3 (c : Dev nD) : W3 m ρ c (Proc.devRef .tc main_v54) = val_main_v58 (F := Ideal) (a4 m c) :=
  (HostSide.stretch1_bias (W2 m ρ c)).trans (congrArg (val_main_v58 (F := Ideal)) (weights2 m ρ c).2.2.2.1)

/-- After the second dense region: the reference's features after the second layer. -/
theorem features4 (c : Dev nD) :
    W4 m ρ c (Proc.devRef .tc main_v55) = val_main_v61 (F := Ideal) (a0 m c) (a1 m c) (a2 m c) (a3 m c) (a4 m c) (a7 m c) :=
  calc W4 m ρ c (Proc.devRef .tc main_v55)
    _ = (dat1 (V3 m ρ) c).arrAt 3 cfg1.N := W4_arr m ρ c 3
    _ = affineRelu (V3 m ρ c main_v53) (V3 m ρ c main_arg3) (V3 m ρ c main_v54) := Layer.layer1_value (V3 m ρ) c
    _ = affineRelu (val_main_v56 (F := Ideal) (a0 m c) (a1 m c) (a2 m c) (a7 m c)) (a3 m c) (val_main_v58 (F := Ideal) (a4 m c)) :=
          affineRelu_congr (features3 m ρ c) (weights3 m ρ c).2.2.1 (bias3 m ρ c)
    _ = val_main_v61 (F := Ideal) (a0 m c) (a1 m c) (a2 m c) (a3 m c) (a4 m c) (a7 m c) :=
          (Cert.ReferenceIdeal.Layers.second_layer _ _ _ _ _ _).symm

/-- The third stretch propagates them: the last region's input. -/
theorem features5 (c : Dev nD) :
    W5 m ρ c (Proc.devRef .tc main_v71) = val_main_v77 (F := Ideal) (a0 m c) (a1 m c) (a2 m c) (a3 m c) (a4 m c) (a7 m c) :=
  calc W5 m ρ c (Proc.devRef .tc main_v71)
    _ = propagate2 (F := Ideal) (a7 m c) (W4 m ρ c (Proc.devRef .tc main_v55)) :=
          HostSide.stretch2_features (W4 m ρ c) (a7 m c) (graph4 m ρ c)
    _ = propagate2 (F := Ideal) (a7 m c) (val_main_v61 (F := Ideal) (a0 m c) (a1 m c) (a2 m c) (a3 m c) (a4 m c) (a7 m c)) :=
          congrArg (propagate2 (F := Ideal) (a7 m c)) (features4 m ρ c)
    _ = val_main_v77 (F := Ideal) (a0 m c) (a1 m c) (a2 m c) (a3 m c) (a4 m c) (a7 m c) :=
          (Cert.ReferenceIdeal.Layers.last_input _ _ _ _ _ _).symm

theorem bias5 (c : Dev nD) : W5 m ρ c (Proc.devRef .tc main_v72) = val_main_v79 (F := Ideal) (a6 m c) :=
  (HostSide.stretch2_bias (W4 m ρ c)).trans (congrArg (val_main_v79 (F := Ideal)) (weights4 m ρ c).2.2.2.2.2)

/-- After the last dense region the result buffer holds the reference's result of the same arguments. -/
theorem result (c : Dev nD) :
    W6 m ρ c (Proc.devRef .tc main_v73)
      = val_main_v81 (F := Ideal) (a0 m c) (a1 m c) (a2 m c) (a3 m c) (a4 m c) (a5 m c) (a6 m c) (a7 m c) :=
  calc W6 m ρ c (Proc.devRef .tc main_v73)
    _ = (dat2 (V5 m ρ) c).arrAt 3 cfg2.N := W6_arr m ρ c 3
    _ = affine (V5 m ρ c main_v71) (V5 m ρ c main_arg5) (V5 m ρ c main_v72) := Layer.layer2_value (V5 m ρ) c
    _ = affine (val_main_v77 (F := Ideal) (a0 m c) (a1 m c) (a2 m c) (a3 m c) (a4 m c) (a7 m c)) (a5 m c) (val_main_v79 (F := Ideal) (a6 m c)) :=
          affine_congr (features5 m ρ c) (weights5 m ρ c).2.2.2.2.1 (bias5 m ρ c)
    _ = val_main_v81 (F := Ideal) (a0 m c) (a1 m c) (a2 m c) (a3 m c) (a4 m c) (a5 m c) (a6 m c) (a7 m c) :=
          (Cert.ReferenceIdeal.Layers.last_layer _ _ _ _ _ _ _ _).symm

end Cert.KernelIdeal.Whole

end
-- ==== Proof.lean ====
/-
  Three graph-convolution layers, tiled against whole.

  Both programs take node features (100000 nodes, 128 features), three weight matrices with their biases and an
  edge list, add a self loop to every node, and apply three layers.  A layer propagates the features over the graph
  — each row scaled by the inverse square root of its node's out-degree (at least one), one row gathered per edge,
  the gathered rows added into their destination nodes, each row scaled by the inverse square root of the
  in-degree — and then applies a dense layer X W + b, followed in the first two layers by the positive part.  The
  two programs run the propagation with the same host operations.  They differ in the dense layer: one computes it
  on the matrix unit, a tile of 10000 rows at a time, after narrowing the operands to a shorter float format; the
  other computes one whole matrix product and adds the broadcast bias.

  Over the extended reals narrowing is the identity and a matrix product's entry is the sum of the 128 products
  along the inner axis whichever way it is tiled, so each dense region leaves in its output exactly the array the
  whole product gives, and the propagation, being the same function on both sides, is never opened.  No law is used
  that fails at an infinity — only that a finite sum does not depend on how it is arranged — so the finiteness of the
  inputs is not needed for the equality of the results.  The two idealized programs' frames are the generated ones;
  the idealization rewrote nothing, so there is nothing to preserve.
-/
import proofs.«173956_j33500744909168_1_alg».proof.Defs
import proofs.«173956_j33500744909168_1_alg».proof.Proof.Gen.Kernel
import proofs.«173956_j33500744909168_1_alg».proof.Proof.Gen.Kernel.Frame
import proofs.«173956_j33500744909168_1_alg».proof.Proof.Gen.KernelIdeal
import proofs.«173956_j33500744909168_1_alg».proof.Proof.Gen.KernelIdeal.Frame
import proofs.«173956_j33500744909168_1_alg».proof.Proof.Gen.ReferenceIdeal
import proofs.«173956_j33500744909168_1_alg».proof.Proof.Gen.ReferenceIdeal.Run
import proofs.«173956_j33500744909168_1_alg».proof.Proof.Gen.ReferenceIdeal.Read
import proofs.«173956_j33500744909168_1_alg».proof.Proof.Gen.Pre_finite_inputs
import proofs.«173956_j33500744909168_1_alg».proof.Proof.KernelRun
import proofs.«173956_j33500744909168_1_alg».proof.Proof.Whole
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is a sequence of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the reference's result term of the first program's arguments: the tiled program because
    its result buffer at the last boundary holds it, the reference because its own arguments agree with those. -/
theorem algebraic : Cert.algebraic_KernelIdeal_ReferenceIdeal := by
  intro m ρ m' ρ' _ hagree
  refine ⟨fun c => Cert.ReferenceIdeal.Read.val_main_v81 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Whole.result m ρ c), (h c).2⟩)
      (Cert.KernelIdeal.Result.run_result m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v81_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
